-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : IVec S16384 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S16384 : Shape := ⟨1, ![16384]⟩
abbrev S16384x1 : Shape := ⟨2, ![16384, 1]⟩
abbrev S512x4096 : Shape := ⟨2, ![512, 4096]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S16384x1, .i32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x1, .i32⟩
  | .local _ .vmem, ⟨3, _⟩ => ⟨S512x1, .i32⟩
  | .local _ .vmem, ⟨4, _⟩ => ⟨S512x4096, .f32⟩
  | .local _ .vmem, ⟨5, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384_S16384x1 : S16384.ShapeCasts S16384x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x4096_d1_w32 : S512x4096.Iotas .tc 32 [1]
  broadcasts_S512x1_S512x4096 : S512x1.Broadcasts S512x4096
  inb_S512x4096_S512x4096_0_0 : ∀ a, (![0, 0] : Fin 2 → Nat) a + S512x4096.size a ≤ S512x4096.size a
  h_S512x4096 : 0 < S512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384 : Shape := ⟨1, ![16384]⟩
abbrev S4096 : Shape := ⟨1, ![4096]⟩
abbrev S16384x1 : Shape := ⟨2, ![16384, 1]⟩
abbrev S1x4096 : Shape := ⟨2, ![1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S4096, .i32⟩
  | .hbm, ⟨3, _⟩ => ⟨S16384x1, .i32⟩
  | .hbm, ⟨4, _⟩ => ⟨S1x4096, .i32⟩
  | .hbm, ⟨5, _⟩ => ⟨S16384x4096, .i32⟩
  | .hbm, ⟨6, _⟩ => ⟨S16384x4096, .i32⟩
  | .hbm, ⟨7, _⟩ => ⟨S16384x4096, .i1⟩
  | .hbm, ⟨8, _⟩ => ⟨S_, .f32⟩
  | .hbm, ⟨9, _⟩ => ⟨S16384x4096, .f32⟩
  | .hbm, ⟨10, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_call0_v0 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S16384x1_S16384x4096_0_1 : S16384x1.BroadcastsInDim S16384x4096 (![0, 1] : Fin 2 → Fin S16384x4096.rank)
  bcast_S_S16384x4096 : S_.BroadcastsInDim S16384x4096 (![] : Fin 0 → Fin S16384x4096.rank)

variable [Facts₀]

class Facts : Prop extends Facts₀ where

variable [Facts]
-- ==== Proof.MaskSpec.lean ====
/-
  The value both programs compute, as one function of the two argument arrays.

  For an image array `img` of 16384 rows by 4096 columns and a vector `pos` of 16384 words, entry (r, j) of
  the result is `img (r, j)` when the column number j, read as a 32-bit word, is below `pos r` in the SIGNED
  order of 32-bit words, and the zero of the float format otherwise: each row keeps a prefix of its entries
  (the columns left of its position) and is zero from that column on.  Nothing here is arithmetic on the
  floats, so the function is stated once for every reading of the floats.
-/
import Idealize.ShloMosaic.PureOps
import Idealize.ShloMosaic.Lib.ValueIdx

noncomputable section

namespace Cert.PrefixMask

open Idealize.ShloMosaic Idealize.ShloMosaic.ValueIdx

variable {F : FTy → Type} [FloatOps F]

/-- Row `r` of the result keeps `img (r, j)` at the columns `j` whose number is below `pos r` (signed
    comparison of 32-bit words) and holds the float zero at every other column. -/
def keepPrefix (img : (⟨2, ![16384, 4096]⟩ : Shape).Idx → F .f32) (pos : (⟨1, ![16384]⟩ : Shape).Idx → BitVec 32) :
    (⟨2, ![16384, 4096]⟩ : Shape).Idx → F .f32 :=
  fun i => Scalar.select (IntOp.cmpi .slt (BitVec.ofNat 32 (i 1).val) (pos (ix1 (i 0)))) (img i)
    (FloatOps.ofBits .f32 0x00000000#32)

/-- The function at row `r`, column `j`. -/
theorem keepPrefix_apply (img : (⟨2, ![16384, 4096]⟩ : Shape).Idx → F .f32) (pos : (⟨1, ![16384]⟩ : Shape).Idx → BitVec 32)
    (r : Fin 16384) (j : Fin 4096) :
    keepPrefix img pos (ix2 r j)
      = Scalar.select (IntOp.cmpi .slt (BitVec.ofNat 32 j.val) (pos (ix1 r))) (img (ix2 r j)) (FloatOps.ofBits .f32 0x00000000#32) :=
  rfl

end Cert.PrefixMask

end
-- ==== Proof.MaskRef.lean ====
/-
  The reference, read one operation at a time, is the prefix-keeping function of its two arguments.

  The reference compares a row of column numbers (an iota over the 4096 columns, broadcast down the rows)
  with the position vector broadcast along the columns, by the signed order of 32-bit words, and selects
  between the image and a broadcast zero.  At entry (r, j) the compared words are the column number j and
  `pos r`: exactly the specification's test, with the same two branches.
-/
import proofs.«115609_j46308337386065_1_alg».proof.Proof.Gen.ReferenceIdeal.Read
import proofs.«115609_j46308337386065_1_alg».proof.Proof.MaskSpec

noncomputable section

namespace Cert.ReferenceIdeal.MaskRef

open Cert.ReferenceIdeal Cert.ReferenceIdeal.Read Cert.PrefixMask
open Idealize.ShloMosaic Idealize.ShloMosaic.ValueIdx

variable {F : FTy → Type} [FloatOps F]

/-- The reference's last stage at an entry: the operations read back to the arguments, the two index
    compositions (the position's row, the iota's column) being the entry's own coordinates. -/
theorem stage_eq_keepPrefix (x0 : (⟨S16384x4096, .f32⟩ : BufTy).Contents (Elt F)) (x1 : (⟨S16384, .i32⟩ : BufTy).Contents (Elt F)) :
    val_main_v6 (F := F) x0 x1 = keepPrefix x0 x1 := by
  funext i
  rw [val_main_v6_apply, val_main_v5_apply, val_main_v3_apply, val_main_v2_apply, val_main_v0_apply,
    val_main_v4_apply, val_main_v1_apply, val_main_call0_v0_apply, val_main_cst_apply]
  have hrow : idx_main_v1 (idx_main_v4 i) = ix1 (i 0) :=
    funext fun a => Fin.ext (by match a with | ⟨0, _⟩ => rfl)
  rw [hrow]
  rfl

end Cert.ReferenceIdeal.MaskRef

end
-- ==== Proof.MaskKernel.lean ====
/-
  The kernel's result array, after its run, is the prefix-keeping function of the two arguments.

  The grid has 32 points; point t works on rows 512·t … 512·t + 511.  Its image block is those rows of
  the image, its position block is those rows of the position vector laid out as a column (the host
  reshapes the vector to 16384 by 1 before the launch), and the body writes, at row p and column q of
  its output block, the image entry when the column number q is below the row's position in the
  signed order of 32-bit words, and zero otherwise.  So what point t writes back is rows
  512·t … 512·t + 511 of the specification, and the 32 blocks tile the array.
-/
import proofs.«115609_j46308337386065_1_alg».proof.Proof.Gen.KernelIdeal.Value
import proofs.«115609_j46308337386065_1_alg».proof.Proof.MaskSpec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.MaskValue

open Cert.KernelIdeal Cert.KernelIdeal.Gen Cert.KernelIdeal.Value Cert.PrefixMask

variable {F : FTy → Type} [FloatOps F]
variable (m : (ℓ : Loc nD τ sig) → Buf (Elt F) ℓ) (ρ : Dev nD → PrngReg)

theorem zeroOffsets : (![0, 0] : Fin 2 → Nat) = fun _ => 0 := funext fun a => by fin_cases a <;> rfl

/-! ## The body's value at one entry of a block -/

/-- At row `p`, column `q` of a block the body compares the column number with the position block's
    entry in row `p` (its single column broadcast along the row) and selects the image entry or zero. -/
theorem body_apply (posBlk : Vec F S512x1 .i32) (imgBlk : Vec F S512x4096 .f32) (p : Fin 512) (q : Fin 4096) :
    k0_pay1 posBlk imgBlk (ix2 p q)
      = Scalar.select (IntOp.cmpi .slt (BitVec.ofNat 32 q.val) (posBlk (ix2 p 0))) (imgBlk (ix2 p q))
          (FloatOps.ofBits .f32 0x00000000#32) := by
  unfold k0_pay1
  dsimp only
  rw [select_apply]
  show Scalar.select (IntOp.cmpi .slt (iota .tc S512x4096 32 [1] _ (ix2 p q)) (broadcastTo S512x4096 (shapeCast S512x1 posBlk _) _ (ix2 p q))) _ _ = _
  rw [iota_single_apply, shapeCast_self, broadcastTo_apply posBlk _ (ix2 p q) (ix2 p 0) (fun a => match a with
    | ⟨0, _⟩ => by show p.val = if (512 : Nat) = 1 then 0 else p.val; rw [if_neg (by decide)]
    | ⟨1, _⟩ => by show 0 = if (1 : Nat) = 1 then 0 else q.val; rw [if_pos rfl])]
  rfl

/-! ## Where each window's block sits, and what it holds -/

/-- Over the 32 grid points: each of the three windows is at block (t, 0) at point t. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The position window's array is the position vector laid out as one column: the host's reshape
    before the launch. -/
theorem posColumn_eq (c : Dev nD) :
    (V m c main_v0 : S16384x1.Idx → BitVec 32)
      = shapeCast S16384x1 (m ((c : Thread nD τ).loc main_arg1)) Facts₀.shapeCasts_S16384_S16384x1 := by
  dsimp only [V, hostOps0]; after_results; rfl

/-- Row `r` of that column is entry `r` of the position vector (the two have the same row-major place). -/
theorem posColumn_apply (c : Dev nD) (r : Fin 16384) :
    (V m c main_v0 : S16384x1.Idx → BitVec 32) (ix2 r 0)
      = (m ((c : Thread nD τ).loc main_arg1) : S16384.Idx → BitVec 32) (ix1 r) := by
  rw [posColumn_eq]
  refine shapeCast_apply _ _ (ix2 r 0) (ix1 r) ?_
  rw [Shape.rowMajor_val_one, Shape.rowMajor_val_two]
  show r.val = r.val * 1 + 0
  omega

/-- Row `p`, column `q` of the image block at point `t` is row 512·t + p, column `q` of the image. -/
theorem imgBlock_apply (c : Dev nD) (t : Fin cfg0.N) (p : Fin 512) (q : Fin 4096) (r : Fin 16384)
    (hr : r.val = t.val * 512 + p.val) :
    (iblk m c 0 t : Vec F S512x4096 .f32) (ix2 p q) = (V m c main_arg0 : S16384x4096.Idx → F .f32) (ix2 r q) := by
  obtain ⟨e0, e1, -⟩ := blockIndex t
  unfold iblk
  rw [View.read_apply]
  show V m c main_arg0 _ = V m c main_arg0 _
  congr 1
  funext a
  apply Fin.ext
  match a with
  | ⟨0, _⟩ => show win0_0.index t 0 * 512 + 1 * p.val = r.val; rw [e0, hr]; omega
  | ⟨1, _⟩ => show win0_0.index t 1 * 4096 + 1 * q.val = q.val; rw [e1]; omega

/-- Row `p` of the position block at point `t` is row 512·t + p of the position column. -/
theorem posBlock_apply (c : Dev nD) (t : Fin cfg0.N) (p : Fin 512) (r : Fin 16384)
    (hr : r.val = t.val * 512 + p.val) :
    (iblk m c 1 t : Vec F S512x1 .i32) (ix2 p 0) = (V m c main_v0 : S16384x1.Idx → BitVec 32) (ix2 r 0) := by
  obtain ⟨-, -, e0, e1, -⟩ := blockIndex t
  unfold iblk
  rw [View.read_apply]
  show V m c main_v0 _ = V m c main_v0 _
  congr 1
  funext a
  apply Fin.ext
  match a with
  | ⟨0, _⟩ => show win0_1.index t 0 * 512 + 1 * p.val = r.val; rw [e0, hr]; omega
  | ⟨1, _⟩ => show win0_1.index t 1 * 1 + 1 * 0 = 0; rw [e1]

/-! ## What a point writes back, and the array after the run -/

/-- What point `t` writes back is block `t` of the prefix-keeping function of the two arguments. -/
theorem flushed_eq (c : Dev nD) (t : Fin cfg0.N) :
    (dats m 0 c).flushed 2 t = ((cfg0.win 2).blk t).view.read (Elt F)
      (keepPrefix (m ((c : Thread nD τ).loc main_arg0)) (m ((c : Thread nD τ).loc main_arg1))) := by
  rw [flushed2]
  unfold out0_2
  rw [View.canon_unit_zero zeroOffsets]
  simp only [View.ld_unit_zero (S := S512x4096) zeroOffsets, View.ld_unit_zero (S := S512x1) zeroOffsets]
  obtain ⟨-, -, -, -, e0, e1⟩ := blockIndex t
  have ht : t.val < 32 := lt_of_lt_of_eq t.isLt N_0
  funext j
  obtain ⟨p, q, rfl⟩ : ∃ (p : Fin 512) (q : Fin 4096), j = ix2 p q := ⟨j 0, j 1, eq_ix2 j⟩
  have hr : t.val * 512 + p.val < 16384 := by have := p.isLt; omega
  have hemb : ((cfg0.win 2).blk t).view.emb (ix2 p q) = ix2 (⟨t.val * 512 + p.val, hr⟩ : Fin 16384) q := by
    funext a; apply Fin.ext
    match a with
    | ⟨0, _⟩ => show win0_2.index t 0 * 512 + 1 * p.val = t.val * 512 + p.val; rw [e0]; omega
    | ⟨1, _⟩ => show win0_2.index t 1 * 4096 + 1 * q.val = q.val; rw [e1]; omega
  show k0_pay1 (iblk m c 1 t) (iblk m c 0 t) (ix2 p q) = keepPrefix _ _ (((cfg0.win 2).blk t).view.emb (ix2 p q))
  rw [hemb, keepPrefix_apply]
  refine (body_apply (iblk m c 1 t) (iblk m c 0 t) p q).trans ?_
  rw [imgBlock_apply m c t p q ⟨_, hr⟩ rfl, posBlock_apply m c t p ⟨_, hr⟩ rfl, posColumn_apply, V_main_arg0]

/-- An index of the array is in point `t`'s block iff each coordinate is in the block's range. -/
theorem mem_block (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v1).slice (win0_2.rect t)).set ↔ _
  rw [View.set_slice_whole, Rect.mem_set_unit]
  exact Iff.rfl

/-- Row `r` of the array lies in the block of point `r / 512`: the 32 blocks tile the array. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 32 := N_0
  have hlt : (i 0).val / 512 < cfg0.N := by rw [hN]; omega
  obtain ⟨-, -, -, -, e0, e1⟩ := blockIndex ⟨(i 0).val / 512, hlt⟩
  refine ⟨⟨(i 0).val / 512, hlt⟩, flush0_2 _, ?_⟩
  rw [mem_block]
  intro a
  match a with
  | ⟨0, _⟩ =>
    show win0_2.index ⟨(i 0).val / 512, hlt⟩ 0 * 512 ≤ (i 0).val ∧ (i 0).val < win0_2.index ⟨(i 0).val / 512, hlt⟩ 0 * 512 + 512
    rw [e0]; show (i 0).val / 512 * 512 ≤ (i 0).val ∧ (i 0).val < (i 0).val / 512 * 512 + 512; omega
  | ⟨1, _⟩ =>
    show win0_2.index ⟨(i 0).val / 512, hlt⟩ 1 * 4096 ≤ (i 1).val ∧ (i 1).val < win0_2.index ⟨(i 0).val / 512, hlt⟩ 1 * 4096 + 4096
    rw [e1]; omega

/-- After the run the result array holds the prefix-keeping function of the two arguments. -/
theorem final (c : Dev nD) :
    (dats m 0 c).arrAt 2 cfg0.N
      = keepPrefix (m ((c : Thread nD τ).loc main_arg0)) (m ((c : Thread nD τ).loc main_arg1)) :=
  (dats m 0 c).arrAt_eq_of_cover 2 _ (fun t _ => flushed_eq m c t) covered

/-- The kernel's run, read: the result array at the prefix-keeping function, the arguments unchanged. -/
theorem run : θ_run defs (onTc (τ := τ) (main (F := F))) ⟨m, fun _ => 0, ρ⟩ fun r => ∀ c : Dev nD,
      r.2.mem ((c : Thread nD τ).loc main_v1)
        = keepPrefix (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.MaskValue

end
-- ==== Proof.lean ====
/-
  Each row of a 16384 by 4096 image keeps its entries left of the row's position and is zero from that
  column on: a Pallas kernel over 32 blocks of 512 rows against jnp's `where(arange < position, images, 0)`.

  Both programs compare the column number with the row's position by the signed order of 32-bit words and
  select between the image entry and the float zero; neither does arithmetic on the floats, so the two
  results are the same function of the arguments (`Cert.PrefixMask.keepPrefix`) for every reading of the
  floats, and the precondition is never opened.  The kernel's array after its run is that function because
  point t writes rows 512·t … 512·t + 511 of it and the 32 blocks tile the array (Proof/MaskKernel.lean);
  the reference's last operation, read back to the arguments entry by entry, is the same function
  (Proof/MaskRef.lean).  The three frames are the generated runs; the idealization rewrote nothing, so
  there is nothing to preserve.
-/
import proofs.«115609_j46308337386065_1_alg».proof.Defs
import proofs.«115609_j46308337386065_1_alg».proof.Proof.Gen.Kernel
import proofs.«115609_j46308337386065_1_alg».proof.Proof.Gen.Kernel.Skeleton
import proofs.«115609_j46308337386065_1_alg».proof.Proof.Gen.Kernel.Launch
import proofs.«115609_j46308337386065_1_alg».proof.Proof.Gen.Kernel.Points
import proofs.«115609_j46308337386065_1_alg».proof.Proof.Gen.Kernel.Frame
import proofs.«115609_j46308337386065_1_alg».proof.Proof.Gen.KernelIdeal
import proofs.«115609_j46308337386065_1_alg».proof.Proof.Gen.KernelIdeal.Skeleton
import proofs.«115609_j46308337386065_1_alg».proof.Proof.Gen.KernelIdeal.Launch
import proofs.«115609_j46308337386065_1_alg».proof.Proof.Gen.KernelIdeal.Points
import proofs.«115609_j46308337386065_1_alg».proof.Proof.Gen.KernelIdeal.Frame
import proofs.«115609_j46308337386065_1_alg».proof.Proof.Gen.ReferenceIdeal
import proofs.«115609_j46308337386065_1_alg».proof.Proof.Gen.Pre_finite_inputs
import proofs.«115609_j46308337386065_1_alg».proof.Proof.Gen.KernelIdeal.Value
import proofs.«115609_j46308337386065_1_alg».proof.Proof.Gen.ReferenceIdeal.Run
import proofs.«115609_j46308337386065_1_alg».proof.Proof.Gen.ReferenceIdeal.Read
import proofs.«115609_j46308337386065_1_alg».proof.Proof.MaskSpec
import proofs.«115609_j46308337386065_1_alg».proof.Proof.MaskRef
import proofs.«115609_j46308337386065_1_alg».proof.Proof.MaskKernel
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the image and the positions both programs end with the prefix-keeping
    function of those two arrays in their result. -/
theorem algebraic : Cert.algebraic_KernelIdeal_ReferenceIdeal := by
  intro m ρ m' ρ' _ hagree
  refine ⟨_, Cert.KernelIdeal.MaskValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.MaskRef.stage_eq_keepPrefix, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
